-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S150000x512 : Shape := ⟨2, ![150000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S150000x512 : S_.BroadcastsInDim S150000x512 (![] : Fin 0 → Fin S150000x512.rank)
  reducesTo_S150000x512_S_d0_1 : S150000x512.ReducesTo [0, 1] S_

variable [Facts]

def fn {F : FTy → Type} [FloatOps F] (main_arg0 : FVec F S1024x512 .f32) (main_arg1 : IVec S1024 32) (main_arg2 : FVec F S150000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S150000x512 .f32 := Host.absf main_arg2
  let main_cst_0 : FVec F S_ .f32 := constant S_ .f32 0x7F800000#32
  let main_v5 : FVec F S150000x512 .f32 := broadcastInDim S150000x512 ![] bcast_S_S150000x512 main_cst_0
  let main_v6 : IVec S150000x512 1 := cmpf .olt main_v4 main_v5
  let main_c_1 : IVec S_ 1 := constantI S_ 1 1#1
  let main_v7 : IVec S_ 1 := (fun x v => Host.reduce IntOp.andi x v reducesTo_S150000x512_S_d0_1 h_S_) main_v6 main_c_1
  let main_v8 : IVec S_ 1 := andi main_v3 main_v7
  main_v8
-- ==== Kernel.lean ====
abbrev S1024x512 : Shape := ⟨2, ![1024, 512]⟩
abbrev S1024 : Shape := ⟨1, ![1024]⟩
abbrev S150000x512 : Shape := ⟨2, ![150000, 512]⟩
abbrev S_ : Shape := ⟨0, ![]⟩
abbrev S1024x1 : Shape := ⟨2, ![1024, 1]⟩
abbrev S50000x3x512 : Shape := ⟨3, ![50000, 3, 512]⟩
abbrev S50000x1x512 : Shape := ⟨3, ![50000, 1, 512]⟩
abbrev S50000x512 : Shape := ⟨2, ![50000, 512]⟩
abbrev S50176x512 : Shape := ⟨2, ![50176, 512]⟩
abbrev S1024x50176 : Shape := ⟨2, ![1024, 50176]⟩
abbrev S512x512 : Shape := ⟨2, ![512, 512]⟩
abbrev S512 : Shape := ⟨1, ![512]⟩
abbrev S512x1 : Shape := ⟨2, ![512, 1]⟩
abbrev S1024x50000 : Shape := ⟨2, ![1024, 50000]⟩

abbrev nBuf : Space → Nat
  | .hbm => 35
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S150000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x512, .bf16⟩
  | .hbm, ⟨14, _⟩ => ⟨S50000x3x512, .f32⟩
  | .hbm, ⟨15, _⟩ => ⟨S50000x1x512, .f32⟩
  | .hbm, ⟨16, _⟩ => ⟨S50000x512, .f32⟩
  | .hbm, ⟨17, _⟩ => ⟨S50000x1x512, .f32⟩
  | .hbm, ⟨18, _⟩ => ⟨S50000x512, .f32⟩
  | .hbm, ⟨19, _⟩ => ⟨S50000x1x512, .f32⟩
  | .hbm, ⟨20, _⟩ => ⟨S50000x512, .f32⟩
  | .hbm, ⟨21, _⟩ => ⟨S_, .i32⟩
  | .hbm, ⟨22, _⟩ => ⟨S_, .f32⟩
  | .hbm, ⟨23, _⟩ => ⟨S50176x512, .f32⟩
  | .hbm, ⟨24, _⟩ => ⟨S_, .i32⟩
  | .hbm, ⟨25, _⟩ => ⟨S_, .f32⟩
  | .hbm, ⟨26, _⟩ => ⟨S50176x512, .f32⟩
  | .hbm, ⟨27, _⟩ => ⟨S_, .i32⟩
  | .hbm, ⟨28, _⟩ => ⟨S_, .f32⟩
  | .hbm, ⟨29, _⟩ => ⟨S50176x512, .f32⟩
  | .hbm, ⟨30, _⟩ => ⟨S1024x1, .i32⟩
  | .hbm, ⟨31, _⟩ => ⟨S1024x50176, .f32⟩
  | .hbm, ⟨32, _⟩ => ⟨S1024x50176, .f32⟩
  | .hbm, ⟨33, _⟩ => ⟨S1024x50000, .f32⟩
  | .hbm, ⟨34, _⟩ => ⟨S1024x50000, .f32⟩
  | .local _ .vmem, ⟨0, _⟩ => ⟨S1024x512, .bf16⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1024x1, .i32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_c_1 : Ref sig .tc := ⟨.hbm, 24, rfl⟩
abbrev main_call1_v0 : Ref sig .tc := ⟨.hbm, 25, rfl⟩
abbrev main_v17 : Ref sig .tc := ⟨.hbm, 26, rfl⟩
abbrev main_c_2 : Ref sig .tc := ⟨.hbm, 27, rfl⟩
abbrev main_call2_v0 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  shapeCasts_S150000x512_S50000x3x512 : S150000x512.ShapeCasts S50000x3x512
  slices_S50000x3x512_S50000x1x512_0_0_0 : S50000x3x512.Slices ![0, 0, 0] S50000x1x512
  shapeCasts_S50000x1x512_S50000x512 : S50000x1x512.ShapeCasts S50000x512
  slices_S50000x3x512_S50000x1x512_0_1_0 : S50000x3x512.Slices ![0, 1, 0] S50000x1x512
  slices_S50000x3x512_S50000x1x512_0_2_0 : S50000x3x512.Slices ![0, 2, 0] S50000x1x512
  pads_S50000x512_S50176x512_01760_000 : S50000x512.Pads (![0, 0] : Fin 2 → Nat) ![176, 0] ![0, 0] S50176x512
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  transposes_S512x512_p1_0_S512x512 : S512x512.Transposes [1, 0] S512x512
  iota_S1024x512_d1_w32 : S1024x512.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  slices_S1024x50176_S1024x50000_0_0 : S1024x50176.Slices ![0, 0] S1024x50000
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S50176x512.size a
  hwx0_1 : ∀ i : grid0.Coords, EltTy.bits .f32 = 32 ∨ (Rect.block (s := S50176x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S50176x512.size a
  hwx0_2 : ∀ i : grid0.Coords, EltTy.bits .f32 = 32 ∨ (Rect.block (s := S50176x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S50176x512.size a
  hwx0_3 : ∀ i : grid0.Coords, EltTy.bits .f32 = 32 ∨ (Rect.block (s := S50176x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .i32 = 32 ∨ (Rect.block (s := S1024x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x50176.size a
  hwx0_5 : ∀ i : grid0.Coords, EltTy.bits .f32 = 32 ∨ (Rect.block (s := S1024x50176) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x50176.size a
  hwx0_6 : ∀ i : grid0.Coords, EltTy.bits .f32 = 32 ∨ (Rect.block (s := S1024x50176) S1024x512.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v8) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S150000x512 : Shape := ⟨2, ![150000, 512]⟩
abbrev S_ : Shape := ⟨0, ![]⟩
abbrev S1024x1 : Shape := ⟨2, ![1024, 1]⟩
abbrev S150000 : Shape := ⟨1, ![150000]⟩
abbrev S150000x1 : Shape := ⟨2, ![150000, 1]⟩
abbrev S1024x150000 : Shape := ⟨2, ![1024, 150000]⟩
abbrev S1024x50000x3 : Shape := ⟨3, ![1024, 50000, 3]⟩
abbrev S1024x50000 : Shape := ⟨2, ![1024, 50000]⟩
abbrev S1x50000 : Shape := ⟨2, ![1, 50000]⟩

abbrev nBuf : Space → Nat
  | .hbm => 69
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S150000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S150000x512, .f32⟩
  | .hbm, ⟨14, _⟩ => ⟨S_, .f32⟩
  | .hbm, ⟨15, _⟩ => ⟨S150000, .f32⟩
  | .hbm, ⟨16, _⟩ => ⟨S150000x1, .f32⟩
  | .hbm, ⟨17, _⟩ => ⟨S_, .f32⟩
  | .hbm, ⟨18, _⟩ => ⟨S150000x1, .f32⟩
  | .hbm, ⟨19, _⟩ => ⟨S150000x1, .f32⟩
  | .hbm, ⟨20, _⟩ => ⟨S150000x1, .f32⟩
  | .hbm, ⟨21, _⟩ => ⟨S150000x512, .f32⟩
  | .hbm, ⟨22, _⟩ => ⟨S150000x512, .f32⟩
  | .hbm, ⟨23, _⟩ => ⟨S1024x150000, .f32⟩
  | .hbm, ⟨24, _⟩ => ⟨S1024x50000x3, .f32⟩
  | .hbm, ⟨25, _⟩ => ⟨S_, .f32⟩
  | .hbm, ⟨26, _⟩ => ⟨S1024x50000, .f32⟩
  | .hbm, ⟨27, _⟩ => ⟨S1024x50000, .f32⟩
  | .hbm, ⟨28, _⟩ => ⟨S_, .f32⟩
  | .hbm, ⟨29, _⟩ => ⟨S1024x50000, .f32⟩
  | .hbm, ⟨30, _⟩ => ⟨S1024x50000, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024x50000, .f32⟩
  | .hbm, ⟨35, _⟩ => ⟨S1024x50000, .f32⟩
  | .hbm, ⟨36, _⟩ => ⟨S_, .f32⟩
  | .hbm, ⟨37, _⟩ => ⟨S1024x50000, .f32⟩
  | .hbm, ⟨38, _⟩ => ⟨S1024x50000, .f32⟩
  | .hbm, ⟨39, _⟩ => ⟨S1024x50000, .f32⟩
  | .hbm, ⟨40, _⟩ => ⟨S_, .f32⟩
  | .hbm, ⟨41, _⟩ => ⟨S1024x50000, .f32⟩
  | .hbm, ⟨42, _⟩ => ⟨S1024x50000, .f32⟩
  | .hbm, ⟨43, _⟩ => ⟨S_, .f32⟩
  | .hbm, ⟨44, _⟩ => ⟨S1024x50000, .f32⟩
  | .hbm, ⟨45, _⟩ => ⟨S1024x50000, .f32⟩
  | .hbm, ⟨46, _⟩ => ⟨S1024x50000, .f32⟩
  | .hbm, ⟨47, _⟩ => ⟨S_, .f32⟩
  | .hbm, ⟨48, _⟩ => ⟨S1024x50000, .f32⟩
  | .hbm, ⟨49, _⟩ => ⟨S1024x50000, .i1⟩
  | .hbm, ⟨50, _⟩ => ⟨S_, .f32⟩
  | .hbm, ⟨51, _⟩ => ⟨S1024x50000, .f32⟩
  | .hbm, ⟨52, _⟩ => ⟨S1024x50000, .f32⟩
  | .hbm, ⟨53, _⟩ => ⟨S1024x50000, .f32⟩
  | .hbm, ⟨54, _⟩ => ⟨S1024x1, .i32⟩
  | .hbm, ⟨55, _⟩ => ⟨S1x50000, .i32⟩
  | .hbm, ⟨56, _⟩ => ⟨S1024x50000, .i32⟩
  | .hbm, ⟨57, _⟩ => ⟨S1024x50000, .i32⟩
  | .hbm, ⟨58, _⟩ => ⟨S1024x50000, .i1⟩
  | .hbm, ⟨59, _⟩ => ⟨S1024x50000, .f32⟩
  | .hbm, ⟨60, _⟩ => ⟨S1024x50000, .f32⟩
  | .hbm, ⟨61, _⟩ => ⟨S_, .f32⟩
  | .hbm, ⟨62, _⟩ => ⟨S1024x50000, .f32⟩
  | .hbm, ⟨63, _⟩ => ⟨S1024x50000, .f32⟩
  | .hbm, ⟨64, _⟩ => ⟨S1024x50000, .f32⟩
  | .hbm, ⟨65, _⟩ => ⟨S1024x50000, .f32⟩
  | .hbm, ⟨66, _⟩ => ⟨S_, .f32⟩
  | .hbm, ⟨67, _⟩ => ⟨S1024x50000, .f32⟩
  | .hbm, ⟨68, _⟩ => ⟨S1024x50000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v34 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S150000x512_S150000_d1 : S150000x512.ReducesTo [1] S150000
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x512_0_1 : S150000x1.BroadcastsInDim S150000x512 (![0, 1] : Fin 2 → Fin S150000x512.rank)
  shapeCasts_S1024x150000_S1024x50000x3 : S1024x150000.ShapeCasts S1024x50000x3
  reducesTo_S1024x50000x3_S1024x50000_d2 : S1024x50000x3.ReducesTo [2] S1024x50000
  bcast_S_S1024x50000 : S_.BroadcastsInDim S1024x50000 (![] : Fin 0 → Fin S1024x50000.rank)
  bcast_S1024x1_S1024x50000_0_1 : S1024x1.BroadcastsInDim S1024x50000 (![0, 1] : Fin 2 → Fin S1024x50000.rank)
  bcast_S1x50000_S1024x50000_0_1 : S1x50000.BroadcastsInDim S1024x50000 (![0, 1] : Fin 2 → Fin S1024x50000.rank)
  dot_S1024x512_S150000x512_S1024x150000_1_1_0_0_n_n_wf : DotDims.WF S1024x512 S150000x512 S1024x150000 [1] [1] [0] [0] [] []

variable [Facts₀]

def dot_S1024x512_S150000x512_S1024x150000_1_1_0_0_n_n : DotDims S1024x512 S150000x512 S1024x150000 where
  lhsContracting := [1]
  rhsContracting := [1]
  lhsNonContracting := [0]
  rhsNonContracting := [0]
  lhsBatch := []
  rhsBatch := []
  wf := dot_S1024x512_S150000x512_S1024x150000_1_1_0_0_n_n_wf

class Facts : Prop extends Facts₀ where

variable [Facts]
-- ==== Proof.ArcSpec.lean ====
/-
  The sub-centre ArcFace head as plain functions on the extended reals.

  A query row q and a weight row v (512 numbers each) have the cosine
  cosRow q v = ∑ d, q d · (v d / √(∑ k, v k² + ε)), the query having been scaled to unit length beforehand and the weight row being
  scaled here. A label c owns three consecutive weight rows (its sub-centres); its logit is the largest of the three
  cosines, cos3. The margin transform phiOf sends a cosine c to c·cos m − √(clip(1 − c², 0, 1))·sin m where c > cos(π − m),
  and to c − m·sin(π − m) elsewhere; marginOf takes phiOf at the labelled column and the cosine itself at every other
  column, and scales by 30. Every float constant is kept as its binary word; only the words of 0, 1 and −∞ are evaluated.

  Two small algebraic facts join the two spellings of the head: a maximum folded from −∞ over three values is the
  maximum of the three, and blending two numbers with a weight h ∈ {0, 1} as h·p + (1 − h)·c is the selection
  "p if h = 1 else c" — on the extended reals too, because 0·x = 0 for every x, the infinities included.
-/
import Idealize.ShloMosaic.PureOps.Ideal
import Idealize.ShloMosaic.PureOps.Ideal.Laws
import Idealize.ShloMosaic.Lib.ValueIdx

noncomputable section

namespace Cert.ArcFace

open Idealize.ShloMosaic

/-- The regulariser under the square root: the f32 word nearest 10⁻¹². -/
def eps : EReal := Ideal.ofBits .f32 0x2B8CBCCC#32

/-- Entry d of the row v scaled by its regularised length √(∑ v² + ε). -/
def unitRow (v : Fin 512 → EReal) (d : Fin 512) : EReal :=
  Ideal.div (v d) (Ideal.sqrt ((∑ k : Fin 512, v k * v k) + eps))

/-- The cosine of a (unit) query row with a weight row. -/
def cosRow (q v : Fin 512 → EReal) : EReal := ∑ d : Fin 512, q d * unitRow v d

/-- Sub-centre k of label c is row 3·c + k of the weight matrix. -/
def subRow (c : Fin 50000) (k : Fin 3) : Fin 150000 :=
  ⟨3 * c.val + k.val, by have := c.isLt; have := k.isLt; omega⟩

/-- A label's logit: the largest cosine over its three sub-centres. -/
def cos3 (q v0 v1 v2 : Fin 512 → EReal) : EReal := max (max (cosRow q v0) (cosRow q v1)) (cosRow q v2)

/-- The additive angular margin applied to a cosine: cos(θ + m) by the angle-addition formula where θ + m ≤ π, the
    linear continuation c − m·sin(π − m) elsewhere. -/
def phiOf (c : EReal) : EReal :=
  Scalar.select (Ideal.cmp .ogt c (Ideal.ofBits .f32 0xBF7490EF#32))
    (c * Ideal.ofBits .f32 0x3F7490EF#32
      - Ideal.sqrt (min (Ideal.ofBits .f32 0x3F800000#32) (max (Ideal.ofBits .f32 0x00000000#32) (Ideal.ofBits .f32 0x3F800000#32 - c * c)))
        * Ideal.ofBits .f32 0x3E974E6D#32)
    (c - Ideal.ofBits .f32 0x3DB5914F#32)

/-- The scaled logit with margin: the margin transform at the labelled column (hit = 1), the cosine elsewhere, times 30. -/
def marginOf (c : EReal) (hit : BitVec 1) : EReal :=
  Scalar.select hit (phiOf c) c * Ideal.ofBits .f32 0x41F00000#32

/-- The f32 word of 1.0 is the number one. -/
theorem ofBits_one_f32 : Ideal.ofBits .f32 0x3F800000#32 = 1 := by
  simp [Ideal.ofBits, Ideal.ieee, -EReal.coe_mul] <;> norm_num

/-- The f32 word of −∞ is the bottom of the extended reals. -/
theorem ofBits_neginf_f32 : Ideal.ofBits .f32 0xFF800000#32 = ⊥ := by
  simp [Ideal.ofBits, Ideal.ieee]

/-- A one-bit word is 0 or 1. -/
theorem bit_cases (h : BitVec 1) : h = 1#1 ∨ h = 0#1 := by
  by_cases e : h = 1#1
  · exact Or.inl e
  · exact Or.inr (ValueIdx.eq_zero_of_ne_one e)

/-- Blending with a 0/1 weight is selection: h·p + (1 − h)·c is p when h = 1 and c when h = 0, for all extended reals
    p and c (0·x = 0 also at the infinities). -/
theorem blend_eq_select (p c : EReal) (h : BitVec 1) :
    ((h.toNat : ℝ) : EReal) * p + (Ideal.ofBits .f32 0x3F800000#32 - ((h.toNat : ℝ) : EReal)) * c = Scalar.select h p c := by
  rw [ofBits_one_f32]
  rcases bit_cases h with rfl | rfl
  · rw [ValueIdx.select_one]
    have e1 : (((1#1 : BitVec 1).toNat : ℝ) : EReal) = 1 := by norm_num
    rw [e1, one_mul]
    have e2 : (1 : EReal) - 1 = 0 := by rw [← EReal.coe_one, ← EReal.coe_sub, sub_self, EReal.coe_zero]
    rw [e2, zero_mul, add_zero]
  · rw [ValueIdx.select_zero]
    have e1 : (((0#1 : BitVec 1).toNat : ℝ) : EReal) = 0 := by norm_num
    rw [e1, zero_mul, sub_zero, one_mul, zero_add]

/-- The maximum folded from −∞ over three values is the maximum of the three. -/
theorem fold_max_three (f : Fin 3 → EReal) :
    (Finset.univ : Finset (Fin 3)).fold max (Ideal.ofBits .f32 0xFF800000#32) f = max (max (f 0) (f 1)) (f 2) := by
  rw [ofBits_neginf_f32]
  have hu : (Finset.univ : Finset (Fin 3)) = insert 0 (insert 1 {2}) := by decide
  rw [hu, Finset.fold_insert (by decide), Finset.fold_insert (by decide), Finset.fold_singleton]
  rw [max_eq_left (bot_le : (⊥ : EReal) ≤ f 2), ← max_assoc]

end Cert.ArcFace

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.ArcTile.lean ====
/-
  One grid point of the kernel, read at an entry.

  At a grid point the body holds the whole query matrix q (1024 × 512, already of unit rows) and one 512-row tile of
  each of the three sub-centre matrices. It scales every tile row to unit length (the row over √(∑ row² + ε)), multiplies
  q by the transposed tile — entry (b, j) of the product is ∑ d, q(b, d) · tileₙ(j, d), the cosine of query b with row j —
  and takes the largest of the three products: entry (b, j) of the first output tile is the logit cos3 of query b and
  the three rows j. The second output tile applies the margin transform where the label of query b equals the global
  column j + 512·(grid position), and scales by 30.
-/
import proofs.«144202_j50139448213649_1_alg».proof.Proof.Gen.KernelIdeal.Skeleton
import proofs.«144202_j50139448213649_1_alg».proof.Proof.ArcSpec
import proofs.«144202_j50139448213649_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.ArcFace

/-- The column of regularised row lengths of a tile, read at row j: √(∑ₖ w(j, k)² + ε). -/
theorem rowLen_apply (w : FVec Ideal S512x512 .f32) (j : Fin 512) :
    sqrt (addf (shapeCast S512x1 (multiReduction .add [1] S512 (mulf w w) 0x00000000#32 reduces_S512x512_S512 (.inl rfl) rfl) shapeCasts_S512_S512x1)
        (broadcast S512x1 (Scalar.ofBits (F := Ideal) .f32 0x2B8CBCCC#32))) (ix2 j (0 : Fin 1))
      = Ideal.sqrt ((∑ k : Fin 512, w (ix2 j k) * w (ix2 j k)) + eps) := by
  show Ideal.sqrt (shapeCast S512x1 (multiReduction .add [1] S512 (mulf w w) 0x00000000#32 reduces_S512x512_S512 (.inl rfl) rfl) shapeCasts_S512_S512x1 (ix2 j (0 : Fin 1)) + Ideal.ofBits .f32 0x2B8CBCCC#32) = _
  rw [shapeCast_apply _ shapeCasts_S512_S512x1 (ix2 j (0 : Fin 1)) (ix1 j)
    (by rewrite [Shape.rowMajor_val_one, Shape.rowMajor_val_two]; show j.val = j.val * 1 + 0; omega)]
  have hsum := Ideal.multiReduction_add_single (mulf w w) 0x00000000#32 reduces_S512x512_S512 (.inl rfl) rfl (ix1 j)
  refine (congrArg (fun s => Ideal.sqrt (s + Ideal.ofBits .f32 0x2B8CBCCC#32)) hsum).trans ?_
  refine congrArg (fun s => Ideal.sqrt (s + Ideal.ofBits .f32 0x2B8CBCCC#32)) (Finset.sum_congr rfl fun k _ => ?_)
  have e : (reduces_S512x512_S512).lift (ix1 j) k = ix2 j k :=
    funext fun a => Fin.ext (by match a with | ⟨0, _⟩ => rfl | ⟨1, _⟩ => rfl)
  show w _ * w _ = _
  rw [e]
  rfl

/-- A tile with every row scaled to unit length, as the body spells it, read at (j, d). -/
theorem unitTile_apply (w : Vec Ideal S512x512 .f32) (j d : Fin 512) :
    divf (shapeCast S512x512 w shapeCasts_S512x512_S512x512)
        (broadcastTo S512x512
          (sqrt (addf (shapeCast S512x1 (multiReduction .add [1] S512
              (mulf (shapeCast S512x512 w shapeCasts_S512x512_S512x512) (shapeCast S512x512 w shapeCasts_S512x512_S512x512))
              0x00000000#32 reduces_S512x512_S512 (.inl rfl) rfl) shapeCasts_S512_S512x1)
            (broadcast S512x1 (Scalar.ofBits (F := Ideal) .f32 0x2B8CBCCC#32))))
          broadcasts_S512x1_S512x512) (ix2 j d)
      = unitRow (fun k => w (ix2 j k)) d := by
  rw [shapeCast_self]
  show Ideal.div (w (ix2 j d)) (broadcastTo S512x512 _ broadcasts_S512x1_S512x512 (ix2 j d)) = _
  rw [broadcastTo_apply _ broadcasts_S512x1_S512x512 (ix2 j d) (ix2 j (0 : Fin 1)) (fun a => match a with
    | ⟨0, _⟩ => by show j.val = if (512 : Nat) = 1 then 0 else j.val; rw [if_neg (by decide)]
    | ⟨1, _⟩ => by show 0 = if (1 : Nat) = 1 then 0 else d.val; rw [if_pos rfl])]
  rw [rowLen_apply]
  rfl

/-- The product of the query matrix with a transposed unit-row tile, into a zero accumulator, read at (b, j): the cosine
    of query row b with tile row j. -/
theorem cosTile_apply (q : Vec Ideal S1024x512 .bf16) (w : Vec Ideal S512x512 .f32) (b : Fin 1024) (j : Fin 512) :
    matmul dot_S1024x512_S512x512_S1024x512_1_0_0_1_n_n none (k0_pay3 q)
        (transpose S512x512 [1, 0]
          (truncf .bf16
            (divf (shapeCast S512x512 w shapeCasts_S512x512_S512x512)
              (broadcastTo S512x512
                (sqrt (addf (shapeCast S512x1 (multiReduction .add [1] S512
                    (mulf (shapeCast S512x512 w shapeCasts_S512x512_S512x512) (shapeCast S512x512 w shapeCasts_S512x512_S512x512))
                    0x00000000#32 reduces_S512x512_S512 (.inl rfl) rfl) shapeCasts_S512_S512x1)
                  (broadcast S512x1 (Scalar.ofBits (F := Ideal) .f32 0x2B8CBCCC#32))))
                broadcasts_S512x1_S512x512))
            bitsLt_bf16_f32)
          transposes_S512x512_p1_0_S512x512)
        (constant S1024x512 .f32 0x00000000#32) (ix2 b j)
      = cosRow (fun d => q (ix2 b d)) (fun d => w (ix2 j d)) := by
  rw [show dot_S1024x512_S512x512_S1024x512_1_0_0_1_n_n = DotDims.plain 1024 512 512 from rfl]
  refine (Cert.LibDense.matmul_plain_zero_apply none (k0_pay3 q) _ b j).trans ?_
  unfold cosRow
  refine Finset.sum_congr rfl fun d _ => ?_
  rw [transpose_ix2_apply, truncf_apply, unitTile_apply]
  unfold k0_pay3
  rw [shapeCast_self]

/-- Entry (b, j) of the first output tile: the logit of query b against the three sub-centre rows j. -/
theorem logitTile_apply (q : Vec Ideal S1024x512 .bf16) (w0 w1 w2 : Vec Ideal S512x512 .f32) (b : Fin 1024) (j : Fin 512) :
    k0_pay1 (k0_pay4 q w2) (k0_pay5 q w0 w1) (ix2 b j)
      = cos3 (fun d => q (ix2 b d)) (fun d => w0 (ix2 j d)) (fun d => w1 (ix2 j d)) (fun d => w2 (ix2 j d)) := by
  unfold cos3
  rw [← cosTile_apply q w0 b j, ← cosTile_apply q w1 b j, ← cosTile_apply q w2 b j]
  rfl

/-- Entry (b, j) of the second output tile at grid position word a0: the margin transform of the logit where query b's
    label is the column word j + 512·a0, the logit elsewhere, times 30. -/
theorem marginTile_apply (a0 : BitVec 32) (q : Vec Ideal S1024x512 .bf16) (w0 w1 w2 : Vec Ideal S512x512 .f32)
    (lab : Vec Ideal S1024x1 .i32) (b : Fin 1024) (j : Fin 512) :
    k0_pay2 a0 (k0_pay4 q w2) (k0_pay5 q w0 w1) lab (ix2 b j)
      = marginOf (k0_pay1 (k0_pay4 q w2) (k0_pay5 q w0 w1) (ix2 b j))
          (IntOp.cmpi .eq (lab (ix2 b (0 : Fin 1))) (IntOp.addi (BitVec.ofNat 32 j.val) (IntOp.muli a0 512#32))) := by
  have hl : broadcastTo S1024x512 (shapeCast S1024x1 lab shapeCasts_S1024x1_S1024x1) broadcasts_S1024x1_S1024x512 (ix2 b j)
      = lab (ix2 b (0 : Fin 1)) := by
    rw [shapeCast_self]
    exact broadcastTo_apply _ broadcasts_S1024x1_S1024x512 (ix2 b j) (ix2 b (0 : Fin 1)) (fun a => match a with
      | ⟨0, _⟩ => by show b.val = if (1024 : Nat) = 1 then 0 else b.val; rw [if_neg (by decide)]
      | ⟨1, _⟩ => by show 0 = if (1 : Nat) = 1 then 0 else j.val; rw [if_pos rfl])
  have hi : iota .tc S1024x512 32 [1] iota_S1024x512_d1_w32 (ix2 b j) = BitVec.ofNat 32 j.val :=
    iota_single_apply _ _ _ _ _ _
  rw [← hl, ← hi]
  rfl

end Cert.KernelIdeal.Tile

end
-- ==== Proof.ArcHead.lean ====
/-
  The two results of the head as whole arrays, functions of the unit query matrix q (1024 × 512), the weight matrix w
  (150000 × 512) and the labels: entry (b, c) of the logits is cos3 of query row b and weight rows 3c, 3c+1, 3c+2; entry
  (b, c) of the logits with margin is marginOf of that logit, the margin taken where the label word of query b is the
  word of c.
-/
import proofs.«144202_j50139448213649_1_alg».proof.Proof.ArcSpec

noncomputable section

namespace Cert.ArcFace

open Idealize.ShloMosaic Idealize.ShloMosaic.ValueIdx

/-- The logits: for query b and label c, the largest cosine of the query with the label's three sub-centre rows. -/
def logitOf (q : (⟨2, ![1024, 512]⟩ : Shape).Idx → EReal) (w : (⟨2, ![150000, 512]⟩ : Shape).Idx → EReal) :
    (⟨2, ![1024, 50000]⟩ : Shape).Idx → EReal := fun i =>
  cos3 (fun d => q (ix2 (⟨(i 0).val, (i 0).isLt⟩ : Fin 1024) d))
    (fun d => w (ix2 (subRow (⟨(i 1).val, (i 1).isLt⟩ : Fin 50000) 0) d))
    (fun d => w (ix2 (subRow (⟨(i 1).val, (i 1).isLt⟩ : Fin 50000) 1) d))
    (fun d => w (ix2 (subRow (⟨(i 1).val, (i 1).isLt⟩ : Fin 50000) 2) d))

/-- The logits with margin: the margin transform at the labelled column, the logit elsewhere, times 30. -/
def marginsOf (q : (⟨2, ![1024, 512]⟩ : Shape).Idx → EReal) (w : (⟨2, ![150000, 512]⟩ : Shape).Idx → EReal)
    (lab : (⟨1, ![1024]⟩ : Shape).Idx → BitVec 32) : (⟨2, ![1024, 50000]⟩ : Shape).Idx → EReal := fun i =>
  marginOf (logitOf q w i)
    (IntOp.cmpi .eq (lab (ix1 (⟨(i 0).val, (i 0).isLt⟩ : Fin 1024))) (BitVec.ofNat 32 (i 1).val))

/-- The logit depends on its four rows only through their entries. -/
theorem cos3_congr {q q' v0 v0' v1 v1' v2 v2' : Fin 512 → EReal} (hq : ∀ d, q d = q' d) (h0 : ∀ d, v0 d = v0' d)
    (h1 : ∀ d, v1 d = v1' d) (h2 : ∀ d, v2 d = v2' d) : cos3 q v0 v1 v2 = cos3 q' v0' v1' v2' := by
  rw [show q = q' from funext hq, show v0 = v0' from funext h0, show v1 = v1' from funext h1, show v2 = v2' from funext h2]

/-- The word of a global column: tile position t, column j inside the 512-wide tile. No 32-bit wrap occurs below 2³². -/
theorem colWord (t j : Nat) (ht : t < 98) (hj : j < 512) :
    IntOp.addi (BitVec.ofNat 32 j) (IntOp.muli (BitVec.ofNat 32 t) 512#32) = BitVec.ofNat 32 (512 * t + j) := by
  apply BitVec.eq_of_toNat_eq
  show (BitVec.ofNat 32 j + BitVec.ofNat 32 t * 512#32).toNat = (BitVec.ofNat 32 (512 * t + j)).toNat
  simp only [BitVec.toNat_add, BitVec.toNat_mul, BitVec.toNat_ofNat]
  omega

end Cert.ArcFace

end
-- ==== Proof.ArcKernel.lean ====
/-
  The kernel program's two results as the head's whole arrays.

  Before the launch the host scales the query matrix to unit rows and cuts the weight matrix into its three sub-centre
  matrices (row c of matrix k is weight row 3c + k), each padded below with 176 zero rows to 50176 = 98 · 512 rows.
  Grid point t works on rows 512t … 512t + 511 of the three matrices and writes columns 512t … 512t + 511 of the two
  1024 × 50176 outputs; the 98 column tiles cover the outputs, so each output is one function of the arrays the launch
  found: entry (b, col) is the logit (the logit with margin) of query b and rows col of the three padded matrices.
  The host then keeps columns 0 … 49999, where row col of padded matrix k is weight row 3·col + k: the results are
  logitOf and marginsOf of the unit query matrix, the weight matrix and the labels.
-/
import proofs.«144202_j50139448213649_1_alg».proof.Proof.FrameKernelIdeal
import proofs.«144202_j50139448213649_1_alg».proof.Proof.Gen.ReferenceIdeal.Read
import proofs.«144202_j50139448213649_1_alg».proof.Proof.ArcTile
import proofs.«144202_j50139448213649_1_alg».proof.Proof.ArcHead
import Idealize.ShloMosaic.Lib.StableHlo.Run
import Idealize.ShloMosaic.Lib.KernelVsHost
import Idealize.ShloMosaic.Lib.ValueLayout
import Idealize.ShloMosaic.Lib.Pipeline.Value

set_option maxRecDepth 16384

noncomputable section

namespace Cert.KernelIdeal.Head

open Idealize.ShloMosaic Idealize.ShloMosaic.TcCoe Idealize.SL.Sem Idealize.ShloMosaic.StableHlo Idealize.ShloMosaic.ValueIdx
open Idealize.ShloMosaic.Pipeline (Dat Cfg Window)
open Cert.KernelIdeal Cert.KernelIdeal.Gen Cert.KernelIdeal.GenP Cert.ArcFace

/-! ## The arrays the launch finds -/

/-- Sub-centre matrix k, padded: rows 0 … 49999 are weight rows 3c + k, rows 50000 … 50175 are zero. -/
def subCentre (k : Nat) (hs : S50000x3x512.Slices ![0, k, 0] S50000x1x512) (x : S150000x512.Idx → EReal) :
    S50176x512.Idx → EReal :=
  pad S50176x512 ![0, 0] ![176, 0] ![0, 0]
    (shapeCast S50000x512
      (extractStridedSlice S50000x1x512 ![0, k, 0] (shapeCast S50000x3x512 x shapeCasts_S150000x512_S50000x3x512) hs)
      shapeCasts_S50000x1x512_S50000x512)
    (sitofp (F := Ideal) .f32 (constantI S_ 32 0#32)) pads_S50000x512_S50176x512_01760_000 h_S_

/-- Above the padding, row c of sub-centre matrix k is weight row 3c + k. -/
theorem subCentre_apply (k : Nat) (hk : k < 3) (hs : S50000x3x512.Slices ![0, k, 0] S50000x1x512) (x : S150000x512.Idx → EReal)
    (c : Fin 50000) (d : Fin 512) :
    subCentre k hs x (ix2 (⟨c.val, by have := c.isLt; omega⟩ : Fin 50176) d) = x (ix2 (subRow c ⟨k, hk⟩) d) := by
  unfold subCentre
  have hc := c.isLt
  have hd := d.isLt
  refine (pad_apply_of_inside ![0, 0] ![176, 0] ![0, 0] _ _ pads_S50000x512_S50176x512_01760_000 h_S_ _ (ix2 c d)
    (fun a => match a with
      | ⟨0, _⟩ => by show c.val = 0 + c.val * (0 + 1); omega
      | ⟨1, _⟩ => by show d.val = 0 + d.val * (0 + 1); omega)).trans ?_
  refine (shapeCast_apply _ shapeCasts_S50000x1x512_S50000x512 (ix2 c d) (ix3 c (0 : Fin 1) d)
    (by rewrite [Shape.rowMajor_val_three, Shape.rowMajor_val_two]
        show (c.val * 1 + 0) * 512 + d.val = c.val * 512 + d.val; omega)).trans ?_
  refine (extractStridedSlice_apply ![0, k, 0] _ hs (ix3 c (0 : Fin 1) d) (ix3 c (⟨k, hk⟩ : Fin 3) d)
    (fun a => match a with
      | ⟨0, _⟩ => by show c.val = 0 + c.val; omega
      | ⟨1, _⟩ => by show k = k + 0; omega
      | ⟨2, _⟩ => by show d.val = 0 + d.val; omega)).trans ?_
  exact shapeCast_apply _ shapeCasts_S150000x512_S50000x3x512 (ix3 c (⟨k, hk⟩ : Fin 3) d) (ix2 (subRow c ⟨k, hk⟩) d)
    (by rewrite [Shape.rowMajor_val_two, Shape.rowMajor_val_three]
        show (3 * c.val + k) * 512 + d.val = (c.val * 3 + k) * 512 + d.val; omega)

variable (m : (ℓ : Loc nD τ sig) → Buf (Elt Ideal) ℓ) (ρ : Dev nD → PrngReg)

/-- The query operand: the host's unit-row query matrix (the same host operations as the reference's). -/
theorem V_query (c : Dev nD) :
    (V m c main_v8 : S1024x512.Idx → EReal)
      = Cert.ReferenceIdeal.Read.val_main_v7 (F := Ideal) (m ((c.tc : Thread nD τ).loc main_arg0)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The three weight operands: the padded sub-centre matrices. -/
theorem V_w0 (c : Dev nD) :
    (V m c main_v16 : S50176x512.Idx → EReal)
      = subCentre 0 slices_S50000x3x512_S50000x1x512_0_0_0 (m ((c.tc : Thread nD τ).loc main_arg2)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl
theorem V_w1 (c : Dev nD) :
    (V m c main_v17 : S50176x512.Idx → EReal)
      = subCentre 1 slices_S50000x3x512_S50000x1x512_0_1_0 (m ((c.tc : Thread nD τ).loc main_arg2)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl
theorem V_w2 (c : Dev nD) :
    (V m c main_v18 : S50176x512.Idx → EReal)
      = subCentre 2 slices_S50000x3x512_S50000x1x512_0_2_0 (m ((c.tc : Thread nD τ).loc main_arg2)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The label operand: the labels as a column. -/
theorem V_lab (c : Dev nD) :
    (V m c main_v19 : S1024x1.Idx → BitVec 32)
      = shapeCast S1024x1 (m ((c.tc : Thread nD τ).loc main_arg1)) shapeCasts_S1024_S1024x1 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-! ## The two outputs over all 50176 columns -/

/-- Entry (b, col) of the first output: the logit of query row b and rows col of the three padded matrices. -/
def padLogits (Q : S1024x512.Idx → EReal) (W0 W1 W2 : S50176x512.Idx → EReal) : S1024x50176.Idx → EReal := fun i =>
  cos3 (fun d => Q (ix2 (⟨(i 0).val, (i 0).isLt⟩ : Fin 1024) d))
    (fun d => W0 (ix2 (⟨(i 1).val, (i 1).isLt⟩ : Fin 50176) d))
    (fun d => W1 (ix2 (⟨(i 1).val, (i 1).isLt⟩ : Fin 50176) d))
    (fun d => W2 (ix2 (⟨(i 1).val, (i 1).isLt⟩ : Fin 50176) d))

/-- Entry (b, col) of the second output: the margin where the label word of query b is the word of col. -/
def padMargins (Q : S1024x512.Idx → EReal) (W0 W1 W2 : S50176x512.Idx → EReal) (L : S1024x1.Idx → BitVec 32) :
    S1024x50176.Idx → EReal := fun i =>
  marginOf (padLogits Q W0 W1 W2 i)
    (IntOp.cmpi .eq (L (ix2 (⟨(i 0).val, (i 0).isLt⟩ : Fin 1024) (0 : Fin 1))) (BitVec.ofNat 32 (i 1).val))

/-! ## One grid point -/

theorem hz : (![0, 0] : Fin 2 → Nat) = fun _ => 0 := funext fun a => by fin_cases a <;> rfl

/-- The printed index maps over the 98 grid points: the query and the labels are whole at every point, weight window
    k takes row tile t, each output takes column tile t, and the grid coordinate is the point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ ((grid0.coords t) 0).val = t.val :=
  (by decide +kernel : ∀ t : Fin grid0.N, _)

theorem point_lt (t : Fin cfg0.N) : t.val < 98 := lt_of_lt_of_eq t.isLt N_0

/-- Column j of tile t is global column 512t + j. -/
def colOf (t : Fin cfg0.N) (j : Fin 512) : Fin 50176 :=
  ⟨512 * t.val + j.val, by have := point_lt t; have := j.isLt; omega⟩

/-- The input blocks at point t, by their literal types. -/
abbrev qblk (c : Dev nD) (t : Fin cfg0.N) : Vec Ideal S1024x512 .bf16 := iblk m c 0 t
abbrev wblk0 (c : Dev nD) (t : Fin cfg0.N) : Vec Ideal S512x512 .f32 := iblk m c 1 t
abbrev wblk1 (c : Dev nD) (t : Fin cfg0.N) : Vec Ideal S512x512 .f32 := iblk m c 2 t
abbrev wblk2 (c : Dev nD) (t : Fin cfg0.N) : Vec Ideal S512x512 .f32 := iblk m c 3 t
abbrev lblk (c : Dev nD) (t : Fin cfg0.N) : Vec Ideal S1024x1 .i32 := iblk m c 4 t

/-- The query block is the whole query operand. -/
theorem qblk_apply (c : Dev nD) (t : Fin cfg0.N) (b : Fin 1024) (d : Fin 512) :
    qblk m c t (ix2 b d) = (V m c main_v8 : S1024x512.Idx → EReal) (ix2 b d) := by
  obtain ⟨e00, e01, -⟩ := idx_facts t
  show V m c main_v8 (((cfg0.win 0).blk t).view.emb (ix2 b d)) = V m c main_v8 (ix2 b d)
  refine congrArg (V m c main_v8) (funext fun a => Fin.ext ?_)
  match a with
  | ⟨0, _⟩ => show win0_0.index t (0 : Fin 2) * 1024 + 1 * b.val = b.val; omega
  | ⟨1, _⟩ => show win0_0.index t (1 : Fin 2) * 512 + 1 * d.val = d.val; omega

/-- Weight block k at point t is rows 512t … 512t + 511 of padded matrix k. -/
theorem wblk0_apply (c : Dev nD) (t : Fin cfg0.N) (j d : Fin 512) :
    wblk0 m c t (ix2 j d) = (V m c main_v16 : S50176x512.Idx → EReal) (ix2 (colOf t j) d) := by
  obtain ⟨-, -, e10, e11, -⟩ := idx_facts t
  show V m c main_v16 (((cfg0.win 1).blk t).view.emb (ix2 j d)) = V m c main_v16 (ix2 (colOf t j) d)
  refine congrArg (V m c main_v16) (funext fun a => Fin.ext ?_)
  match a with
  | ⟨0, _⟩ => show win0_1.index t (0 : Fin 2) * 512 + 1 * j.val = 512 * t.val + j.val; omega
  | ⟨1, _⟩ => show win0_1.index t (1 : Fin 2) * 512 + 1 * d.val = d.val; omega
theorem wblk1_apply (c : Dev nD) (t : Fin cfg0.N) (j d : Fin 512) :
    wblk1 m c t (ix2 j d) = (V m c main_v17 : S50176x512.Idx → EReal) (ix2 (colOf t j) d) := by
  obtain ⟨-, -, -, -, e20, e21, -⟩ := idx_facts t
  show V m c main_v17 (((cfg0.win 2).blk t).view.emb (ix2 j d)) = V m c main_v17 (ix2 (colOf t j) d)
  refine congrArg (V m c main_v17) (funext fun a => Fin.ext ?_)
  match a with
  | ⟨0, _⟩ => show win0_2.index t (0 : Fin 2) * 512 + 1 * j.val = 512 * t.val + j.val; omega
  | ⟨1, _⟩ => show win0_2.index t (1 : Fin 2) * 512 + 1 * d.val = d.val; omega
theorem wblk2_apply (c : Dev nD) (t : Fin cfg0.N) (j d : Fin 512) :
    wblk2 m c t (ix2 j d) = (V m c main_v18 : S50176x512.Idx → EReal) (ix2 (colOf t j) d) := by
  obtain ⟨-, -, -, -, -, -, e30, e31, -⟩ := idx_facts t
  show V m c main_v18 (((cfg0.win 3).blk t).view.emb (ix2 j d)) = V m c main_v18 (ix2 (colOf t j) d)
  refine congrArg (V m c main_v18) (funext fun a => Fin.ext ?_)
  match a with
  | ⟨0, _⟩ => show win0_3.index t (0 : Fin 2) * 512 + 1 * j.val = 512 * t.val + j.val; omega
  | ⟨1, _⟩ => show win0_3.index t (1 : Fin 2) * 512 + 1 * d.val = d.val; omega

/-- The label block is the whole label column. -/
theorem lblk_apply (c : Dev nD) (t : Fin cfg0.N) (b : Fin 1024) :
    lblk m c t (ix2 b (0 : Fin 1)) = (V m c main_v19 : S1024x1.Idx → BitVec 32) (ix2 b (0 : Fin 1)) := by
  obtain ⟨-, -, -, -, -, -, -, -, e40, e41, -⟩ := idx_facts t
  show V m c main_v19 (((cfg0.win 4).blk t).view.emb (ix2 b (0 : Fin 1))) = V m c main_v19 (ix2 b (0 : Fin 1))
  refine congrArg (V m c main_v19) (funext fun a => Fin.ext ?_)
  match a with
  | ⟨0, _⟩ => show win0_4.index t (0 : Fin 2) * 1024 + 1 * b.val = b.val; omega
  | ⟨1, _⟩ => show win0_4.index t (1 : Fin 2) * 1 + 1 * 0 = 0; omega

/-- Entry (p, j) of the first output tile at point t is entry (p, 512t + j) of padLogits. -/
theorem tile_logit (c : Dev nD) (t : Fin cfg0.N) (p : Fin 1024) (j : Fin 512) :
    k0_pay1 (k0_pay4 (qblk m c t) (wblk2 m c t)) (k0_pay5 (qblk m c t) (wblk0 m c t) (wblk1 m c t)) (ix2 p j)
      = padLogits (V m c main_v8) (V m c main_v16) (V m c main_v17) (V m c main_v18) (ix2 p (colOf t j)) := by
  refine (Tile.logitTile_apply (qblk m c t) (wblk0 m c t) (wblk1 m c t) (wblk2 m c t) p j).trans ?_
  unfold padLogits
  exact cos3_congr (fun d => qblk_apply m c t p d) (fun d => wblk0_apply m c t j d) (fun d => wblk1_apply m c t j d)
    (fun d => wblk2_apply m c t j d)

/-- An element of output tile t sits at row p, column 512t + j of the output. -/
theorem emb5 (t : Fin cfg0.N) (p : Fin 1024) (j : Fin 512) :
    ((cfg0.win 5).blk t).view.emb (ix2 p j) = (ix2 p (colOf t j) : S1024x50176.Idx) := by
  obtain ⟨-, -, -, -, -, -, -, -, -, -, e50, e51, -⟩ := idx_facts t
  refine funext fun a => Fin.ext ?_
  match a with
  | ⟨0, _⟩ => show win0_5.index t (0 : Fin 2) * 1024 + 1 * p.val = p.val; omega
  | ⟨1, _⟩ => show win0_5.index t (1 : Fin 2) * 512 + 1 * j.val = 512 * t.val + j.val; omega
theorem emb6 (t : Fin cfg0.N) (p : Fin 1024) (j : Fin 512) :
    ((cfg0.win 6).blk t).view.emb (ix2 p j) = (ix2 p (colOf t j) : S1024x50176.Idx) := by
  obtain ⟨-, -, -, -, -, -, -, -, -, -, -, -, e60, e61, -⟩ := idx_facts t
  refine funext fun a => Fin.ext ?_
  match a with
  | ⟨0, _⟩ => show win0_6.index t (0 : Fin 2) * 1024 + 1 * p.val = p.val; omega
  | ⟨1, _⟩ => show win0_6.index t (1 : Fin 2) * 512 + 1 * j.val = 512 * t.val + j.val; omega

/-- What point t writes back to the first output is tile t of padLogits. -/
theorem flushed5_eq (c : Dev nD) (t : Fin cfg0.N) :
    (dats m 0 c).flushed 5 t
      = ((cfg0.win 5).blk t).view.read (Elt Ideal) (padLogits (V m c main_v8) (V m c main_v16) (V m c main_v17) (V m c main_v18)) := by
  show (cfg0.win 5).cut (grid0.coords t) ((dats m 0 c).after 5 t) = _
  rw [after0_5]
  unfold out0_5
  rw [View.canon_unit_zero hz]
  simp only [View.ld_unit_zero (S := S1024x512) hz, View.ld_unit_zero (S := S512x512) hz]
  funext y
  obtain ⟨p, j, rfl⟩ : ∃ (p : Fin 1024) (j : Fin 512), y = ix2 p j := ⟨y 0, y 1, eq_ix2 y⟩
  show k0_pay1 (k0_pay4 (qblk m c t) (wblk2 m c t)) (k0_pay5 (qblk m c t) (wblk0 m c t) (wblk1 m c t)) (ix2 p j)
    = padLogits (V m c main_v8) (V m c main_v16) (V m c main_v17) (V m c main_v18) (((cfg0.win 5).blk t).view.emb (ix2 p j))
  rw [emb5]
  exact tile_logit m c t p j

/-- What point t writes back to the second output is tile t of padMargins. -/
theorem flushed6_eq (c : Dev nD) (t : Fin cfg0.N) :
    (dats m 0 c).flushed 6 t
      = ((cfg0.win 6).blk t).view.read (Elt Ideal)
          (padMargins (V m c main_v8) (V m c main_v16) (V m c main_v17) (V m c main_v18) (V m c main_v19)) := by
  show (cfg0.win 6).cut (grid0.coords t) ((dats m 0 c).after 6 t) = _
  rw [after0_6]
  unfold out0_6
  rw [View.canon_unit_zero hz]
  simp only [View.ld_unit_zero (S := S1024x512) hz, View.ld_unit_zero (S := S512x512) hz, View.ld_unit_zero (S := S1024x1) hz]
  funext y
  obtain ⟨p, j, rfl⟩ : ∃ (p : Fin 1024) (j : Fin 512), y = ix2 p j := ⟨y 0, y 1, eq_ix2 y⟩
  show k0_pay2 (BitVec.ofNat 32 ((grid0.coords t) 0).val) (k0_pay4 (qblk m c t) (wblk2 m c t))
      (k0_pay5 (qblk m c t) (wblk0 m c t) (wblk1 m c t)) (lblk m c t) (ix2 p j)
    = padMargins (V m c main_v8) (V m c main_v16) (V m c main_v17) (V m c main_v18) (V m c main_v19)
        (((cfg0.win 6).blk t).view.emb (ix2 p j))
  rw [emb6]
  refine (Tile.marginTile_apply _ (qblk m c t) (wblk0 m c t) (wblk1 m c t) (wblk2 m c t) (lblk m c t) p j).trans ?_
  rw [tile_logit m c t p j, lblk_apply m c t p]
  have ht : ((grid0.coords t) 0).val = t.val := (idx_facts t).2.2.2.2.2.2.2.2.2.2.2.2.2.2
  rw [ht, colWord t.val j.val (point_lt t) j.isLt]
  rfl

/-! ## The 98 tiles cover the outputs -/

theorem mem_blk5 (t : Fin cfg0.N) (i : S1024x50176.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v20_0).slice (win0_5.rect t)).set ↔ _
  rw [View.set_slice_whole, Rect.mem_set_unit]
  exact Iff.rfl
theorem mem_blk6 (t : Fin cfg0.N) (i : S1024x50176.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v20_1).slice (win0_6.rect t)).set ↔ _
  rw [View.set_slice_whole, Rect.mem_set_unit]
  exact Iff.rfl

/-- The point whose tile holds column col. -/
def pointOf (i : S1024x50176.Idx) : Fin cfg0.N :=
  ⟨(i 1).val / 512, by rw [show cfg0.N = 98 from N_0]; have h : (i 1).val < 50176 := (i 1).isLt; omega⟩

theorem cover5 (i : S1024x50176.Idx) :
    ∃ t : Fin cfg0.N, (cfg0.win 5).flush t = true ∧ i ∈ ((cfg0.win 5).blk t).view.set := by
  have h0 : (i 0).val < 1024 := (i 0).isLt
  have h1 : (i 1).val < 50176 := (i 1).isLt
  have ht : (pointOf i).val = (i 1).val / 512 := rfl
  obtain ⟨-, -, -, -, -, -, -, -, -, -, e50, e51, -⟩ := idx_facts (pointOf i)
  refine ⟨pointOf i, flush0_5 _, ?_⟩
  rw [mem_blk5]
  intro a
  match a with
  | ⟨0, _⟩ =>
    show win0_5.index (pointOf i) (0 : Fin 2) * 1024 ≤ (i 0).val ∧ (i 0).val < win0_5.index (pointOf i) (0 : Fin 2) * 1024 + 1024
    omega
  | ⟨1, _⟩ =>
    show win0_5.index (pointOf i) (1 : Fin 2) * 512 ≤ (i 1).val ∧ (i 1).val < win0_5.index (pointOf i) (1 : Fin 2) * 512 + 512
    omega
theorem cover6 (i : S1024x50176.Idx) :
    ∃ t : Fin cfg0.N, (cfg0.win 6).flush t = true ∧ i ∈ ((cfg0.win 6).blk t).view.set := by
  have h0 : (i 0).val < 1024 := (i 0).isLt
  have h1 : (i 1).val < 50176 := (i 1).isLt
  have ht : (pointOf i).val = (i 1).val / 512 := rfl
  obtain ⟨-, -, -, -, -, -, -, -, -, -, -, -, e60, e61, -⟩ := idx_facts (pointOf i)
  refine ⟨pointOf i, flush0_6 _, ?_⟩
  rw [mem_blk6]
  intro a
  match a with
  | ⟨0, _⟩ =>
    show win0_6.index (pointOf i) (0 : Fin 2) * 1024 ≤ (i 0).val ∧ (i 0).val < win0_6.index (pointOf i) (0 : Fin 2) * 1024 + 1024
    omega
  | ⟨1, _⟩ =>
    show win0_6.index (pointOf i) (1 : Fin 2) * 512 ≤ (i 1).val ∧ (i 1).val < win0_6.index (pointOf i) (1 : Fin 2) * 512 + 512
    omega

/-- The outputs after the launch. -/
theorem final5 (c : Dev nD) :
    (dats m 0 c).arrAt 5 cfg0.N = padLogits (V m c main_v8) (V m c main_v16) (V m c main_v17) (V m c main_v18) :=
  (dats m 0 c).arrAt_eq_of_cover 5 _ (fun t _ => flushed5_eq m c t) cover5
theorem final6 (c : Dev nD) :
    (dats m 0 c).arrAt 6 cfg0.N
      = padMargins (V m c main_v8) (V m c main_v16) (V m c main_v17) (V m c main_v18) (V m c main_v19) :=
  (dats m 0 c).arrAt_eq_of_cover 6 _ (fun t _ => flushed6_eq m c t) cover6

end Cert.KernelIdeal.Head

end
-- ==== Proof.ArcKernelRun.lean ====
/-
  The kernel program's run, read: after the launch the host keeps columns 0 … 49999 of the two 50176-column outputs.
  There row col of padded sub-centre matrix k is weight row 3·col + k, the query operand is the unit query matrix and
  the label column is the labels, so the two results are logitOf and marginsOf of the unit query matrix, the weight
  matrix and the labels; the argument arrays end as they began.
-/
import proofs.«144202_j50139448213649_1_alg».proof.Proof.ArcKernel

set_option maxRecDepth 16384

noncomputable section

namespace Cert.KernelIdeal.Head

open Idealize.ShloMosaic Idealize.ShloMosaic.TcCoe Idealize.SL.Sem Idealize.ShloMosaic.StableHlo Idealize.ShloMosaic.ValueIdx
open Idealize.ShloMosaic.Pipeline (Dat Cfg Window)
open Cert.KernelIdeal Cert.KernelIdeal.Gen Cert.KernelIdeal.GenP Cert.ArcFace

variable (m : (ℓ : Loc nD τ sig) → Buf (Elt Ideal) ℓ) (ρ : Dev nD → PrngReg)

/-- Below column 50000 an entry of the first output is the logit over the weight rows 3·col, 3·col + 1, 3·col + 2. -/
theorem padLogits_apply (c : Dev nD) (b : Fin 1024) (col : Fin 50000) :
    padLogits (V m c main_v8) (V m c main_v16) (V m c main_v17) (V m c main_v18)
        (ix2 b (⟨col.val, by have := col.isLt; omega⟩ : Fin 50176))
      = logitOf (Cert.ReferenceIdeal.Read.val_main_v7 (F := Ideal) (m ((c.tc : Thread nD τ).loc main_arg0)))
          (m ((c.tc : Thread nD τ).loc main_arg2)) (ix2 b col) := by
  unfold padLogits logitOf
  exact cos3_congr (fun d => congrFun (V_query m c) (ix2 b d))
    (fun d => (congrFun (V_w0 m c) _).trans (subCentre_apply 0 (by omega) _ _ col d))
    (fun d => (congrFun (V_w1 m c) _).trans (subCentre_apply 1 (by omega) _ _ col d))
    (fun d => (congrFun (V_w2 m c) _).trans (subCentre_apply 2 (by omega) _ _ col d))

/-- The label column at row b is the label of query b. -/
theorem label_apply (c : Dev nD) (b : Fin 1024) :
    (V m c main_v19 : S1024x1.Idx → BitVec 32) (ix2 b (0 : Fin 1)) = m ((c.tc : Thread nD τ).loc main_arg1) (ix1 b) :=
  (congrFun (V_lab m c) (ix2 b (0 : Fin 1))).trans
    (shapeCast_apply _ shapeCasts_S1024_S1024x1 (ix2 b (0 : Fin 1)) (ix1 b)
      (by rewrite [Shape.rowMajor_val_one, Shape.rowMajor_val_two]; show b.val = b.val * 1 + 0; omega))

/-- The kept columns of the first output are the logits. -/
theorem out_logits (c : Dev nD) :
    extractStridedSlice S1024x50000 ![0, 0] (padLogits (V m c main_v8) (V m c main_v16) (V m c main_v17) (V m c main_v18))
        slices_S1024x50176_S1024x50000_0_0
      = logitOf (Cert.ReferenceIdeal.Read.val_main_v7 (F := Ideal) (m ((c.tc : Thread nD τ).loc main_arg0)))
          (m ((c.tc : Thread nD τ).loc main_arg2)) := by
  funext i
  obtain ⟨b, col, rfl⟩ : ∃ (b : Fin 1024) (col : Fin 50000), i = ix2 b col := ⟨i 0, i 1, eq_ix2 i⟩
  refine (extractStridedSlice_apply ![0, 0] _ slices_S1024x50176_S1024x50000_0_0 (ix2 b col)
    (ix2 b (⟨col.val, by have := col.isLt; omega⟩ : Fin 50176)) (fun a => match a with
      | ⟨0, _⟩ => by show b.val = 0 + b.val; omega
      | ⟨1, _⟩ => by show col.val = 0 + col.val; omega)).trans ?_
  exact padLogits_apply m c b col

/-- The kept columns of the second output are the logits with margin. -/
theorem out_margins (c : Dev nD) :
    extractStridedSlice S1024x50000 ![0, 0]
        (padMargins (V m c main_v8) (V m c main_v16) (V m c main_v17) (V m c main_v18) (V m c main_v19))
        slices_S1024x50176_S1024x50000_0_0
      = marginsOf (Cert.ReferenceIdeal.Read.val_main_v7 (F := Ideal) (m ((c.tc : Thread nD τ).loc main_arg0)))
          (m ((c.tc : Thread nD τ).loc main_arg2)) (m ((c.tc : Thread nD τ).loc main_arg1)) := by
  funext i
  obtain ⟨b, col, rfl⟩ : ∃ (b : Fin 1024) (col : Fin 50000), i = ix2 b col := ⟨i 0, i 1, eq_ix2 i⟩
  refine (extractStridedSlice_apply ![0, 0] _ slices_S1024x50176_S1024x50000_0_0 (ix2 b col)
    (ix2 b (⟨col.val, by have := col.isLt; omega⟩ : Fin 50176)) (fun a => match a with
      | ⟨0, _⟩ => by show b.val = 0 + b.val; omega
      | ⟨1, _⟩ => by show col.val = 0 + col.val; omega)).trans ?_
  unfold padMargins marginsOf
  rw [padLogits_apply m c b col]
  show marginOf _ (IntOp.cmpi .eq ((V m c main_v19 : S1024x1.Idx → BitVec 32) (ix2 b (0 : Fin 1))) (BitVec.ofNat 32 col.val)) = _
  rw [label_apply m c b]

/-- The first result after the host's slice. -/
theorem tail21 (c : Dev nD) :
    (Pipeline.afterTail₀ cfgs (dats m) 0 (V0 m) [hostOps1] c main_v21 : S1024x50000.Idx → EReal)
      = extractStridedSlice S1024x50000 ![0, 0] (padLogits (V m c main_v8) (V m c main_v16) (V m c main_v17) (V m c main_v18))
          slices_S1024x50176_S1024x50000_0_0 := by
  unfold Pipeline.afterTail₀
  show StableHlo.after hostOps1 _ (Proc.devRef .tc main_v21) = _
  after_results
  exact congrArg (fun X => extractStridedSlice S1024x50000 ![0, 0] X slices_S1024x50176_S1024x50000_0_0)
    ((Pipeline.withArrays_arr spec0 launch0.win.arr_inj c (V0 m c) (fun w => (dats m 0 c).arrAt w (cfgs 0).N) 5).trans (final5 m c))

/-- The second result after the host's slice. -/
theorem tail22 (c : Dev nD) :
    (Pipeline.afterTail₀ cfgs (dats m) 0 (V0 m) [hostOps1] c main_v22 : S1024x50000.Idx → EReal)
      = extractStridedSlice S1024x50000 ![0, 0]
          (padMargins (V m c main_v8) (V m c main_v16) (V m c main_v17) (V m c main_v18) (V m c main_v19))
          slices_S1024x50176_S1024x50000_0_0 := by
  unfold Pipeline.afterTail₀
  show StableHlo.after hostOps1 _ (Proc.devRef .tc main_v22) = _
  after_results
  exact congrArg (fun X => extractStridedSlice S1024x50000 ![0, 0] X slices_S1024x50176_S1024x50000_0_0)
    ((Pipeline.withArrays_arr spec0 launch0.win.arr_inj c (V0 m c) (fun w => (dats m 0 c).arrAt w (cfgs 0).N) 6).trans (final6 m c))

/-- Every weakly fair execution of the kernel program ends with the two results at the logits and the logits with
    margin of the launch arrays, and the argument arrays unchanged. -/
theorem run : θ_run defs (onTc (τ := τ) (main (F := Ideal))) ⟨m, fun _ => 0, ρ⟩ fun r => ∀ c : Dev nD,
      r.2.mem ((c.tc : Thread nD τ).loc main_v21)
        = logitOf (Cert.ReferenceIdeal.Read.val_main_v7 (F := Ideal) (m ((c.tc : Thread nD τ).loc main_arg0)))
            (m ((c.tc : Thread nD τ).loc main_arg2))
      ∧ r.2.mem ((c.tc : Thread nD τ).loc main_v22)
        = marginsOf (Cert.ReferenceIdeal.Read.val_main_v7 (F := Ideal) (m ((c.tc : Thread nD τ).loc main_arg0)))
            (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v21 (Pipeline.mem_restRefs_of main_v21 (by decide) (by decide))).trans ((tail21 m c).trans (out_logits m c)),
     ((h c).2 main_v22 (Pipeline.mem_restRefs_of main_v22 (by decide) (by decide))).trans ((tail22 m c).trans (out_margins m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Head

end
-- ==== Proof.ArcRef.lean ====
/-
  The reference head, read at an entry.

  The reference scales every one of the 150000 weight rows to unit length, multiplies the unit query matrix by the
  transposed result — entry (b, r) is the cosine of query b with weight row r —, regroups the 150000 columns as
  50000 labels × 3 sub-centres (column 3·c + k is sub-centre k of label c) and folds the maximum from −∞ over the three:
  entry (b, c) of its first result is the logit cos3 of query b and rows 3c, 3c+1, 3c+2. Its second result blends the
  margin transform and the logit with the one-hot weight of the label, h·φ + (1 − h)·cos, and scales by 30; with
  h ∈ {0, 1} the blend is the selection marginOf.
-/
import proofs.«144202_j50139448213649_1_alg».proof.Proof.Gen.ReferenceIdeal.Read
import proofs.«144202_j50139448213649_1_alg».proof.Proof.ArcSpec
import Idealize.ShloMosaic.PureOps.Reduce
import Idealize.ShloMosaic.PureOps.Ideal.Laws
import Idealize.ShloMosaic.Lib.ValueIdx

noncomputable section

namespace Cert.ReferenceIdeal.Head

open Idealize.ShloMosaic Idealize.ShloMosaic.ValueIdx Cert.ReferenceIdeal Cert.ReferenceIdeal.Gen Cert.ReferenceIdeal.Read Cert.ArcFace

/-- The weight matrix with unit rows, read at (r, d): the host's sum starts from the zero word, which adds nothing. -/
theorem unitWeight_apply (x2 : (⟨S150000x512, .f32⟩ : BufTy).Contents (Elt Ideal)) (r : Fin 150000) (d : Fin 512) :
    val_main_v15 (F := Ideal) x2 (ix2 r d) = unitRow (fun k => x2 (ix2 r k)) d := by
  rw [val_main_v15_apply, val_main_v14_apply, val_main_v13_apply, val_main_v12_apply, val_main_v10_apply,
    val_main_v11_apply, val_main_v9_apply, val_main_cst_1_apply, val_main_cst_2_apply]
  have e : ∀ k : Fin 512, idx_main_v9 (idx_main_v10 (idx_main_v14 (ix2 r d))) k = ix2 r k := fun k =>
    funext fun a => Fin.ext (by match a with | ⟨0, _⟩ => rfl | ⟨1, _⟩ => rfl)
  simp only [val_main_v8_apply, e, Ideal.hostDivf_def, Ideal.hostUnary_sqrt_def, Ideal.addf_def, Ideal.mulf_def,
    Ideal.ofBits_def, Ideal.ofBits_zero_f32, zero_add]
  rfl

/-- Column 3c + k of the cosine matrix, seen as entry (b, c, k) of the regrouped array: the cosine of query b with
    sub-centre k of label c. -/
theorem cosAll_apply (x0 : (⟨S1024x512, .f32⟩ : BufTy).Contents (Elt Ideal)) (x2 : (⟨S150000x512, .f32⟩ : BufTy).Contents (Elt Ideal))
    (h : S1024x50000x3.Reduces [2] S1024x50000) (b : Fin 1024) (c : Fin 50000) (k : Fin 3) :
    val_main_v17 (F := Ideal) x0 x2 (h.lift (ix2 b c) k)
      = cosRow (fun d => val_main_v7 (F := Ideal) x0 (ix2 b d)) (fun d => x2 (ix2 (subRow c k) d)) := by
  rw [val_main_v17_apply, val_main_v16_apply]
  unfold cosRow
  refine Finset.sum_congr rfl fun d _ => ?_
  have hb := b.isLt
  have hc := c.isLt
  have hk := k.isLt
  have el : lidx_main_v16 (idx_main_v17 (h.lift (ix2 b c) k)) d = ix2 b d := funext fun a => Fin.ext (by
    match a with
    | ⟨0, _⟩ => show ((b.val * 50000 + c.val) * 3 + k.val) / 150000 = b.val; omega
    | ⟨1, _⟩ => rfl)
  have er : ridx_main_v16 (idx_main_v17 (h.lift (ix2 b c) k)) d = ix2 (subRow c k) d := funext fun a => Fin.ext (by
    match a with
    | ⟨0, _⟩ => show ((b.val * 50000 + c.val) * 3 + k.val) % 150000 = 3 * c.val + k.val; omega
    | ⟨1, _⟩ => rfl)
  rw [el, er, unitWeight_apply]

/-- Entry (b, c) of the first result: the logit of query b for label c. -/
theorem logit_apply (x0 : (⟨S1024x512, .f32⟩ : BufTy).Contents (Elt Ideal)) (x2 : (⟨S150000x512, .f32⟩ : BufTy).Contents (Elt Ideal))
    (b : Fin 1024) (c : Fin 50000) :
    val_main_v18 (F := Ideal) x0 x2 (ix2 b c)
      = cos3 (fun d => val_main_v7 (F := Ideal) x0 (ix2 b d)) (fun d => x2 (ix2 (subRow c 0) d))
          (fun d => x2 (ix2 (subRow c 1) d)) (fun d => x2 (ix2 (subRow c 2) d)) := by
  unfold val_main_v18
  have h : S1024x50000x3.Reduces [2] S1024x50000 := by decide
  rw [Host.reduce_eq_fold_single FloatOps.maximumf _ _ reducesTo_S1024x50000x3_S1024x50000_d2 h h_S_]
  have hf : (val_main_v17 (F := Ideal) x0 x2 ∘ h.lift (ix2 b c))
      = fun k : Fin 3 => cosRow (fun d => val_main_v7 (F := Ideal) x0 (ix2 b d)) (fun d => x2 (ix2 (subRow c k) d)) :=
    funext fun k => cosAll_apply x0 x2 h b c k
  rw [hf]
  exact fold_max_three _

/-- Entry (b, c) of the second result: the margin transform of the logit where query b's label is c, the logit
    elsewhere, times 30. -/
theorem margin_apply (x0 : (⟨S1024x512, .f32⟩ : BufTy).Contents (Elt Ideal)) (x1 : (⟨S1024, .i32⟩ : BufTy).Contents (Elt Ideal))
    (x2 : (⟨S150000x512, .f32⟩ : BufTy).Contents (Elt Ideal)) (b : Fin 1024) (c : Fin 50000) :
    val_main_v41 (F := Ideal) x0 x1 x2 (ix2 b c)
      = marginOf (val_main_v18 (F := Ideal) x0 x2 (ix2 b c)) (IntOp.cmpi .eq (x1 (ix1 b)) (BitVec.ofNat 32 c.val)) := by
  rw [val_main_v41_apply, val_main_v39_apply, val_main_v35_apply, val_main_v38_apply, val_main_v37_apply, val_main_v34_apply,
    val_main_call2_v4_apply, val_main_call2_v2_apply, val_main_call2_v0_apply, val_main_call2_v3_apply, val_main_call2_v1_apply,
    val_main_v33_apply, val_main_v30_apply, val_main_v28_apply, val_main_v32_apply, val_main_v25_apply, val_main_v27_apply,
    val_main_v23_apply, val_main_v22_apply, val_main_call0_v2_apply, val_main_v21_apply, val_main_v19_apply,
    val_main_v40_apply, val_main_v36_apply, val_main_v31_apply, val_main_v29_apply, val_main_v26_apply, val_main_v24_apply,
    val_main_v20_apply, val_main_call0_v4_apply, val_main_call0_v1_apply, val_main_call0_v3_apply, val_main_call0_v0_apply,
    val_main_cst_12_apply, val_main_cst_11_apply, val_main_cst_10_apply, val_main_cst_9_apply, val_main_cst_8_apply,
    val_main_cst_7_apply, val_main_cst_6_apply, val_main_cst_5_apply, val_main_cst_4_apply]
  generalize val_main_v18 (F := Ideal) x0 x2 (ix2 b c) = cs
  have e1 : idx_main_call2_v0 (idx_main_call2_v2 (ix2 b c)) = ix1 b := funext fun a => Fin.ext (by match a with | ⟨0, _⟩ => rfl)
  rw [e1]
  show ((((IntOp.cmpi .eq (x1 (ix1 b)) (BitVec.ofNat 32 c.val)).toNat : ℝ) : EReal) * phiOf cs
      + (Ideal.ofBits .f32 0x3F800000#32 - (((IntOp.cmpi .eq (x1 (ix1 b)) (BitVec.ofNat 32 c.val)).toNat : ℝ) : EReal)) * cs) * _ = _
  rw [blend_eq_select]
  rfl

end Cert.ReferenceIdeal.Head

end
-- ==== Proof.ArcRefHead.lean ====
/-
  The reference's two results as the head's whole arrays: entry by entry they are logitOf and marginsOf of the unit
  query matrix, the weight matrix and the labels.
-/
import proofs.«144202_j50139448213649_1_alg».proof.Proof.ArcRef
import proofs.«144202_j50139448213649_1_alg».proof.Proof.ArcHead

noncomputable section

namespace Cert.ReferenceIdeal.Head

open Idealize.ShloMosaic Idealize.ShloMosaic.ValueIdx Cert.ReferenceIdeal Cert.ReferenceIdeal.Gen Cert.ReferenceIdeal.Read Cert.ArcFace

/-- The first result is the logits. -/
theorem logits_eq (x0 : (⟨S1024x512, .f32⟩ : BufTy).Contents (Elt Ideal)) (x2 : (⟨S150000x512, .f32⟩ : BufTy).Contents (Elt Ideal)) :
    val_main_v18 (F := Ideal) x0 x2 = logitOf (val_main_v7 (F := Ideal) x0) x2 := by
  funext i
  obtain ⟨b, c, rfl⟩ : ∃ (b : Fin 1024) (c : Fin 50000), i = ix2 b c := ⟨i 0, i 1, eq_ix2 i⟩
  exact logit_apply x0 x2 b c

/-- The second result is the logits with margin. -/
theorem margins_eq (x0 : (⟨S1024x512, .f32⟩ : BufTy).Contents (Elt Ideal)) (x1 : (⟨S1024, .i32⟩ : BufTy).Contents (Elt Ideal))
    (x2 : (⟨S150000x512, .f32⟩ : BufTy).Contents (Elt Ideal)) :
    val_main_v41 (F := Ideal) x0 x1 x2 = marginsOf (val_main_v7 (F := Ideal) x0) x2 x1 := by
  funext i
  obtain ⟨b, c, rfl⟩ : ∃ (b : Fin 1024) (c : Fin 50000), i = ix2 b c := ⟨i 0, i 1, eq_ix2 i⟩
  rw [margin_apply, logits_eq]
  rfl

end Cert.ReferenceIdeal.Head

end
-- ==== Proof.lean ====
/-
  Sub-centre ArcFace head: a Pallas kernel against its jnp reference, over the extended reals.

  Both programs scale the query matrix to unit rows with the same host operations. The reference scales all 150000
  weight rows, takes every cosine, regroups the columns as 50000 labels × 3 sub-centres and folds the maximum from −∞;
  the kernel cuts the weight matrix into its three sub-centre matrices, scales a 512-row tile of each at every grid
  point, takes three matrix products and the maximum of the three, and the host drops the padding columns. Row c of
  sub-centre matrix k is weight row 3c + k, and the maximum folded from −∞ over three values is their maximum, so both
  first results are logitOf. The reference blends the margin transform and the logit with the one-hot weight
  h ∈ {0, 1}, h·φ + (1 − h)·cos; the kernel selects φ where the label equals the column; 0·x = 0 on the extended reals,
  so both second results are marginsOf. No step moves a factor across a sum, so the inputs' finiteness is not used.

  The two kernel programs run, terminate and keep their arguments by the frame of the one launch (the whole-block
  loads and stores of the body, the 98-point pipeline around it); the reference by its run. The idealization rewrote
  nothing, so there is nothing to preserve.
-/
import proofs.«144202_j50139448213649_1_alg».proof.Defs
import proofs.«144202_j50139448213649_1_alg».proof.Proof.Gen.Kernel
import proofs.«144202_j50139448213649_1_alg».proof.Proof.Gen.Kernel.Skeleton
import proofs.«144202_j50139448213649_1_alg».proof.Proof.Gen.Kernel.Launch
import proofs.«144202_j50139448213649_1_alg».proof.Proof.Gen.Kernel.Points
import proofs.«144202_j50139448213649_1_alg».proof.Proof.FrameKernel
import proofs.«144202_j50139448213649_1_alg».proof.Proof.Gen.KernelIdeal
import proofs.«144202_j50139448213649_1_alg».proof.Proof.Gen.KernelIdeal.Skeleton
import proofs.«144202_j50139448213649_1_alg».proof.Proof.Gen.KernelIdeal.Launch
import proofs.«144202_j50139448213649_1_alg».proof.Proof.Gen.KernelIdeal.Points
import proofs.«144202_j50139448213649_1_alg».proof.Proof.FrameKernelIdeal
import proofs.«144202_j50139448213649_1_alg».proof.Proof.Gen.ReferenceIdeal
import proofs.«144202_j50139448213649_1_alg».proof.Proof.Gen.Pre_finite_inputs
import proofs.«144202_j50139448213649_1_alg».proof.Proof.Gen.ReferenceIdeal.Run
import proofs.«144202_j50139448213649_1_alg».proof.Proof.Gen.ReferenceIdeal.Read
import proofs.«144202_j50139448213649_1_alg».proof.Proof.ArcKernelRun
import proofs.«144202_j50139448213649_1_alg».proof.Proof.ArcRefHead
import Idealize.ShloMosaic.Adequacy
import Idealize.ShloMosaic.Init

noncomputable section

namespace Cert.Proof

open Idealize.ShloMosaic Idealize.SL.Sem Cert.ArcFace

theorem frame_k : Cert.frame_Kernel := fun m ρ _ => Cert.Kernel.GenP.frame m ρ

theorem frame_ki : Cert.frame_KernelIdeal := fun m ρ _ => Cert.KernelIdeal.GenP.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the logits and the logits with margin of the
    unit query matrix, the weight matrix and the labels. -/
theorem algebraic : Cert.algebraic_KernelIdeal_ReferenceIdeal := by
  intro m ρ m' ρ' _ hagree
  refine ⟨_, _, Cert.KernelIdeal.Head.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, (hagree c).1, (hagree c).2.2]
    exact Cert.ReferenceIdeal.Head.logits_eq _ _
  · rw [(h c).2.1, Cert.ReferenceIdeal.Read.val_main_v41_eq, (hagree c).1, (hagree c).2.1, (hagree c).2.2]
    exact Cert.ReferenceIdeal.Head.margins_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
